-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1536 : Shape := ⟨2, ![128, 1536]⟩
abbrev S_ : Shape := ⟨0, ![]⟩

class Facts : Prop where
  bcast_S_S128x1536 : S_.BroadcastsInDim S128x1536 (![] : Fin 0 → Fin S128x1536.rank)
  reducesTo_S128x1536_S_d0_1 : S128x1536.ReducesTo [0, 1] S_
  h_S_ : 0 < S_.numel

variable [Facts]

def fn {F : FTy → Type} [FloatOps F] (main_arg0 : FVec F S128x1536 .f32) : IVec S_ 1 :=
  let main_v0 : FVec F S128x1536 .f32 := Host.absf main_arg0
  let main_cst : FVec F S_ .f32 := constant S_ .f32 0x7F800000#32
  let main_v1 : FVec F S128x1536 .f32 := broadcastInDim S128x1536 ![] bcast_S_S128x1536 main_cst
  let main_v2 : IVec S128x1536 1 := cmpf .olt main_v0 main_v1
  let main_c : IVec S_ 1 := constantI S_ 1 1#1
  let main_v3 : IVec S_ 1 := (fun x v => Host.reduce IntOp.andi x v reducesTo_S128x1536_S_d0_1 h_S_) main_v2 main_c
  main_v3
-- ==== Kernel.lean ====
abbrev S128x1536 : Shape := ⟨2, ![128, 1536]⟩
abbrev S128x512x3 : Shape := ⟨3, ![128, 512, 3]⟩
abbrev S128x1 : Shape := ⟨2, ![128, 1]⟩
abbrev S8x512x3 : Shape := ⟨3, ![8, 512, 3]⟩
abbrev S8x1 : Shape := ⟨2, ![8, 1]⟩
abbrev S512x512 : Shape := ⟨2, ![512, 512]⟩
abbrev S1x512x3 : Shape := ⟨3, ![1, 512, 3]⟩
abbrev S512x3 : Shape := ⟨2, ![512, 3]⟩
abbrev S512x1 : Shape := ⟨2, ![512, 1]⟩
abbrev S512 : Shape := ⟨1, ![512]⟩
abbrev S1x512 : Shape := ⟨2, ![1, 512]⟩
abbrev S1 : Shape := ⟨1, ![1]⟩
abbrev S1x1 : Shape := ⟨2, ![1, 1]⟩
abbrev S3 : Shape := ⟨1, ![3]⟩
abbrev S1x3 : Shape := ⟨2, ![1, 3]⟩

abbrev nBuf : Space → Nat
  | .hbm => 3
  | .vmem => 4
  | .smem => 0
  | _ => 0

abbrev bufTy : (tb : Table) → Fin (tcTables nBuf tb) → BufTy
  | .hbm, ⟨0, _⟩ => ⟨S128x1536, .f32⟩
  | .hbm, ⟨1, _⟩ => ⟨S128x512x3, .f32⟩
  | .hbm, ⟨2, _⟩ => ⟨S128x1, .f32⟩
  | .local _ .vmem, ⟨0, _⟩ => ⟨S8x512x3, .f32⟩
  | .local _ .vmem, ⟨1, _⟩ => ⟨S8x512x3, .f32⟩
  | .local _ .vmem, ⟨2, _⟩ => ⟨S8x1, .f32⟩
  | .local _ .vmem, ⟨3, _⟩ => ⟨S8x1, .f32⟩
  | _, _ => ⟨S128x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v4 : Index := Scalar.indexCast arg3
  let c0 : Index := 0#32
  let c0_1 : Index := 0#32
  ![v4.toNat, 0, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let v74 : Index := Scalar.indexCast arg3
  let c0_16 : Index := 0#32
  ![v74.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x1536_S128x512x3 : S128x1536.ShapeCasts S128x512x3
  iota_S512x512_d0_w32 : S512x512.Iotas .tc 32 [0]
  iota_S512x512_d1_w32 : S512x512.Iotas .tc 32 [1]
  h_S1x512x3 : 0 < S1x512x3.numel
  shapeCasts_S1x512x3_S512x3 : S1x512x3.ShapeCasts S512x3
  slices_S512x3_o0_0_S512x1 : S512x3.Slices ![0, 0] S512x1
  shapeCasts_S512x1_S512 : S512x1.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  slices_S512x3_o0_1_S512x1 : S512x3.Slices ![0, 1] S512x1
  slices_S512x3_o0_2_S512x1 : S512x3.Slices ![0, 2] S512x1
  reduces_S512x512_S512 : S512x512.Reduces [1] S512
  reduces_S512x1_S1 : S512x1.Reduces [0] S1
  shapeCasts_S1_S1x1 : S1.ShapeCasts S1x1
  reduces_S512x3_S3 : S512x3.Reduces [0] S3
  shapeCasts_S3_S1x3 : S3.ShapeCasts S1x3
  broadcasts_S1x3_S512x3 : S1x3.Broadcasts S512x3
  reduces_S512x3_S512 : S512x3.Reduces [1] S512
  shapeCasts_S1x1_S1 : S1x1.ShapeCasts S1
  h_S1x1 : 0 < S1x1.numel
  hrank0 : 0 < grid0.rank
  k0_t1_ok : k0_t1_loop.OK
  k0_off1_inb : ∀ k0_t1 : Fin k0_t1_loop.trips, ∀ a, (k0_off1 k0_t1) a + S1x512x3.size a ≤ S8x512x3.size a
  k0_off2_inb : ∀ k0_t1 : Fin k0_t1_loop.trips, ∀ a, (k0_off2 k0_t1) a + S1x1.size a ≤ S8x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S128x512x3.size a
  hwx0_0 : ∀ i : grid0.Coords, EltTy.bits .f32 = 32 ∨ (Rect.block (s := S128x512x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S128x1.size a
  hwx0_1 : ∀ i : grid0.Coords, EltTy.bits .f32 = 32 ∨ (Rect.block (s := S128x1) S8x1.size (cc0_transform_1 i) (hinb0_1 i)).WholeWords (EltTy.packing .f32)

variable [Facts₀]

abbrev win0_0 : Pipeline.Window sig grid0 :=
  Pipeline.Window.ofSpec (Memref.whole main_v0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1536 : Shape := ⟨2, ![128, 1536]⟩
abbrev S128x512x3 : Shape := ⟨3, ![128, 512, 3]⟩
abbrev S128x512x1x3 : Shape := ⟨4, ![128, 512, 1, 3]⟩
abbrev S128x1x512x3 : Shape := ⟨4, ![128, 1, 512, 3]⟩
abbrev S128x512x512x3 : Shape := ⟨4, ![128, 512, 512, 3]⟩
abbrev S_ : Shape := ⟨0, ![]⟩
abbrev S128x512x512 : Shape := ⟨3, ![128, 512, 512]⟩
abbrev S512x512 : Shape := ⟨2, ![512, 512]⟩
abbrev S128x262144 : Shape := ⟨2, ![128, 262144]⟩
abbrev S128 : Shape := ⟨1, ![128]⟩
abbrev S128x3 : Shape := ⟨2, ![128, 3]⟩
abbrev S128x1x3 : Shape := ⟨3, ![128, 1, 3]⟩
abbrev S128x1 : Shape := ⟨2, ![128, 1]⟩

abbrev nBuf : Space → Nat
  | .hbm => 69
  | .vmem => 0
  | .smem => 0
  | _ => 0

abbrev bufTy : (tb : Table) → Fin (tcTables nBuf tb) → BufTy
  | .hbm, ⟨0, _⟩ => ⟨S128x1536, .f32⟩
  | .hbm, ⟨1, _⟩ => ⟨S128x512x3, .f32⟩
  | .hbm, ⟨2, _⟩ => ⟨S128x512x1x3, .f32⟩
  | .hbm, ⟨3, _⟩ => ⟨S128x1x512x3, .f32⟩
  | .hbm, ⟨4, _⟩ => ⟨S128x512x512x3, .f32⟩
  | .hbm, ⟨5, _⟩ => ⟨S128x512x512x3, .f32⟩
  | .hbm, ⟨6, _⟩ => ⟨S128x512x512x3, .f32⟩
  | .hbm, ⟨7, _⟩ => ⟨S128x512x512x3, .f32⟩
  | .hbm, ⟨8, _⟩ => ⟨S_, .f32⟩
  | .hbm, ⟨9, _⟩ => ⟨S128x512x512, .f32⟩
  | .hbm, ⟨10, _⟩ => ⟨S_, .f32⟩
  | .hbm, ⟨11, _⟩ => ⟨S128x512x512, .f32⟩
  | .hbm, ⟨12, _⟩ => ⟨S128x512x512, .f32⟩
  | .hbm, ⟨13, _⟩ => ⟨S128x512x512, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S_, .f32⟩
  | .hbm, ⟨21, _⟩ => ⟨S_, .f32⟩
  | .hbm, ⟨22, _⟩ => ⟨S128x512x512, .i1⟩
  | .hbm, ⟨23, _⟩ => ⟨S128x512x512, .f32⟩
  | .hbm, ⟨24, _⟩ => ⟨S128x512x512, .f32⟩
  | .hbm, ⟨25, _⟩ => ⟨S_, .f32⟩
  | .hbm, ⟨26, _⟩ => ⟨S128x512x512, .f32⟩
  | .hbm, ⟨27, _⟩ => ⟨S128x512x512, .f32⟩
  | .hbm, ⟨28, _⟩ => ⟨S128x512x512, .f32⟩
  | .hbm, ⟨29, _⟩ => ⟨S128x512x512, .f32⟩
  | .hbm, ⟨30, _⟩ => ⟨S128x512x512, .f32⟩
  | .hbm, ⟨31, _⟩ => ⟨S128x512x512, .f32⟩
  | .hbm, ⟨32, _⟩ => ⟨S_, .f32⟩
  | .hbm, ⟨33, _⟩ => ⟨S128x512x512, .f32⟩
  | .hbm, ⟨34, _⟩ => ⟨S128x512x512, .f32⟩
  | .hbm, ⟨35, _⟩ => ⟨S128x512x512, .f32⟩
  | .hbm, ⟨36, _⟩ => ⟨S_, .f32⟩
  | .hbm, ⟨37, _⟩ => ⟨S128x512x512, .f32⟩
  | .hbm, ⟨38, _⟩ => ⟨S128x512x512, .f32⟩
  | .hbm, ⟨39, _⟩ => ⟨S_, .f32⟩
  | .hbm, ⟨40, _⟩ => ⟨S_, .f32⟩
  | .hbm, ⟨41, _⟩ => ⟨S128x512x512, .i1⟩
  | .hbm, ⟨42, _⟩ => ⟨S128x512x512, .f32⟩
  | .hbm, ⟨43, _⟩ => ⟨S128x512x512, .f32⟩
  | .hbm, ⟨44, _⟩ => ⟨S128x262144, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .f32⟩
  | .hbm, ⟨51, _⟩ => ⟨S128x3, .f32⟩
  | .hbm, ⟨52, _⟩ => ⟨S128x1x3, .f32⟩
  | .hbm, ⟨53, _⟩ => ⟨S_, .f32⟩
  | .hbm, ⟨54, _⟩ => ⟨S128x1x3, .f32⟩
  | .hbm, ⟨55, _⟩ => ⟨S128x1x3, .f32⟩
  | .hbm, ⟨56, _⟩ => ⟨S128x512x3, .f32⟩
  | .hbm, ⟨57, _⟩ => ⟨S128x512x3, .f32⟩
  | .hbm, ⟨58, _⟩ => ⟨S128x512x3, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128x1, .f32⟩
  | _, _ => ⟨S128x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  shapeCasts_S128x1536_S128x512x3 : S128x1536.ShapeCasts S128x512x3
  bcast_S128x512x3_S128x512x1x3_0_1_3 : S128x512x3.BroadcastsInDim S128x512x1x3 (![0, 1, 3] : Fin 3 → Fin S128x512x1x3.rank)
  bcast_S128x512x3_S128x1x512x3_0_2_3 : S128x512x3.BroadcastsInDim S128x1x512x3 (![0, 2, 3] : Fin 3 → Fin S128x1x512x3.rank)
  bcast_S128x512x1x3_S128x512x512x3_0_1_2_3 : S128x512x1x3.BroadcastsInDim S128x512x512x3 (![0, 1, 2, 3] : Fin 4 → Fin S128x512x512x3.rank)
  bcast_S128x1x512x3_S128x512x512x3_0_1_2_3 : S128x1x512x3.BroadcastsInDim S128x512x512x3 (![0, 1, 2, 3] : Fin 4 → Fin S128x512x512x3.rank)
  reducesTo_S128x512x512x3_S128x512x512_d3 : S128x512x512x3.ReducesTo [3] S128x512x512
  h_S_ : 0 < S_.numel
  bcast_S_S128x512x512 : S_.BroadcastsInDim S128x512x512 (![] : Fin 0 → Fin S128x512x512.rank)
  bcast_S_S512x512 : S_.BroadcastsInDim S512x512 (![] : Fin 0 → Fin S512x512.rank)
  bcast_S512x512_S128x512x512_1_2 : S512x512.BroadcastsInDim S128x512x512 (![1, 2] : Fin 2 → Fin S128x512x512.rank)
  shapeCasts_S128x512x512_S128x262144 : S128x512x512.ShapeCasts S128x262144
  reducesTo_S128x262144_S128_d1 : S128x262144.ReducesTo [1] S128
  bcast_S_S128 : S_.BroadcastsInDim S128 (![] : Fin 0 → Fin S128.rank)
  reducesTo_S128x512x3_S128x3_d1 : S128x512x3.ReducesTo [1] S128x3
  bcast_S128x3_S128x1x3_0_2 : S128x3.BroadcastsInDim S128x1x3 (![0, 2] : Fin 2 → Fin S128x1x3.rank)
  bcast_S_S128x1x3 : S_.BroadcastsInDim S128x1x3 (![] : Fin 0 → Fin S128x1x3.rank)
  bcast_S128x1x3_S128x512x3_0_1_2 : S128x1x3.BroadcastsInDim S128x512x3 (![0, 1, 2] : Fin 3 → Fin S128x512x3.rank)
  reducesTo_S128x512x3_S128_d1_2 : S128x512x3.ReducesTo [1, 2] S128
  bcast_S128_S128x1_0 : S128.BroadcastsInDim S128x1 (![0] : Fin 1 → Fin S128x1.rank)

variable [Facts₀]

class Facts : Prop extends Facts₀ where

variable [Facts]
-- ==== Proof.Spec.lean ====
/-
  The energy of one configuration of 512 particles in 3 dimensions, as a function on the extended reals, written in
  the two arrangements the two programs compute it in, and the law that they agree.

  For a configuration `p i d` (particle `i`, coordinate `d`):
  * the squared distance of a pair with the softening constant ε: `ε + Σ_d (p i d − p j d)²`, the kernel adding the
    three squares onto ε one after the other, the reference summing them first and adding ε last;
  * with `t = 1 / √(that)`, the pair's Lennard-Jones term `1·(t¹² − 2·t⁶)`, the sixth power grouped `(t²·t²)·t²` by the
    kernel and `t²·(t²·t²)` by the reference; pairs `i = j` contribute 0;
  * the sum over all ordered pairs: row by row, or over the flattened index `k = 512·i + j`;
  * the mean position: the column sum times 2⁻⁹, or divided by 512;
  * the harmonic term: half the sum of squared deviations from the mean, the factor on the right or on the left.
  All the differences are re-groupings of sums and products, which hold on the whole of the extended reals (they form a
  commutative monoid under + and under ·), and the identity x / 512 = x · 2⁻⁹, which holds for every extended real x
  because 512 is a nonzero real. No finiteness of the inputs is needed.
-/
import Idealize.ShloMosaic.PureOps.Ideal
import Idealize.ShloMosaic.PureOps.Ideal.Laws
import Idealize.ShloMosaic.Lib.ValueIdx

noncomputable section

namespace Cert.Energy

open Idealize.ShloMosaic

/-- A configuration: 512 particles, 3 coordinates each. -/
abbrev Conf := Fin 512 → Fin 3 → EReal

/-- Row `b` of the flat [128, 1536] input, read as a configuration: coordinate `d` of particle `i` is entry `3 i + d`. -/
def rowOf (x : (⟨2, ![128, 1536]⟩ : Shape).Idx → EReal) (b : Fin 128) : Conf :=
  fun i d => x (ValueIdx.ix2 b ⟨3 * i.val + d.val, by have := i.isLt; have := d.isLt; omega⟩)

/-! ## The kernel's arrangement -/

/-- Softened squared distance, the three squares added onto ε in turn. -/
def sqK (p : Conf) (i j : Fin 512) : EReal :=
  Ideal.ofBits .f32 0x358637BD#32 + (p i 0 - p j 0) * (p i 0 - p j 0) + (p i 1 - p j 1) * (p i 1 - p j 1)
    + (p i 2 - p j 2) * (p i 2 - p j 2)

/-- Sixth power, grouped `(t²·t²)·t²`. -/
def sixK (t : EReal) : EReal := ((t * t) * (t * t)) * (t * t)

/-- The Lennard-Jones term of a pair from the sixth power `s` of its inverse distance: `1·(s² − 2 s)`. -/
def well (s : EReal) : EReal :=
  Ideal.ofBits .f32 0x3F800000#32 * (s * s - Ideal.ofBits .f32 0x40000000#32 * s)

/-- A pair's term; a particle does not interact with itself. -/
def pairK (p : Conf) (i j : Fin 512) : EReal :=
  if i = j then 0 else well (sixK (Ideal.div (Ideal.ofBits .f32 0x3F800000#32) (Ideal.sqrt (sqK p i j))))

/-- Mean position, coordinate `d`: the column sum times 2⁻⁹. -/
def meanK (p : Conf) (d : Fin 3) : EReal := (∑ i : Fin 512, p i d) * Ideal.ofBits .f32 0x3B000000#32

/-- The energy, the kernel's arrangement. -/
def energyK (p : Conf) : EReal :=
  (∑ i : Fin 512, ∑ j : Fin 512, pairK p i j) * Ideal.ofBits .f32 0x3F800000#32
    + ((∑ i : Fin 512, ∑ d : Fin 3, (p i d - meanK p d) * (p i d - meanK p d)) * Ideal.ofBits .f32 0x3F000000#32)
        * Ideal.ofBits .f32 0x3F800000#32

/-! ## The reference's arrangement -/

/-- Softened squared distance, the squares summed from 0 and ε added last. -/
def sqR (p : Conf) (i j : Fin 512) : EReal :=
  (0 + ∑ d : Fin 3, (p i d - p j d) * (p i d - p j d)) + Ideal.ofBits .f32 0x358637BD#32

/-- Sixth power, grouped `t²·(t²·t²)`. -/
def sixR (t : EReal) : EReal := (t * t) * ((t * t) * (t * t))

def pairR (p : Conf) (i j : Fin 512) : EReal :=
  if i = j then 0 else well (sixR (Ideal.div (Ideal.ofBits .f32 0x3F800000#32) (Ideal.sqrt (sqR p i j))))

/-- Mean position, coordinate `d`: the column sum divided by 512. -/
def meanR (p : Conf) (d : Fin 3) : EReal := Ideal.div (0 + ∑ i : Fin 512, p i d) (Ideal.ofBits .f32 0x44000000#32)

/-- The flattened pair index `k = 512·i + j` split back into `i` and `j`. -/
def rowOfFlat (k : Fin 262144) : Fin 512 := ⟨k.val / 512, by have := k.isLt; omega⟩
def colOfFlat (k : Fin 262144) : Fin 512 := ⟨k.val % 512, by omega⟩

/-- The energy, the reference's arrangement. -/
def energyR (p : Conf) : EReal :=
  (0 + ∑ k : Fin 262144, pairR p (rowOfFlat k) (colOfFlat k)) * Ideal.ofBits .f32 0x3F800000#32
    + (Ideal.ofBits .f32 0x3F000000#32 * (0 + ∑ i : Fin 512, ∑ d : Fin 3, (p i d - meanR p d) * (p i d - meanR p d)))
        * Ideal.ofBits .f32 0x3F800000#32

/-! ## The two arrangements agree -/

theorem sqK_eq_sqR (p : Conf) (i j : Fin 512) : sqK p i j = sqR p i j := by
  unfold sqK sqR
  rw [Fin.sum_univ_three, zero_add, add_comm _ (Ideal.ofBits .f32 0x358637BD#32), add_assoc, add_assoc, add_assoc]

theorem sixK_eq_sixR (t : EReal) : sixK t = sixR t := by
  unfold sixK sixR; exact mul_comm _ _

theorem pairK_eq_pairR (p : Conf) (i j : Fin 512) : pairK p i j = pairR p i j := by
  unfold pairK pairR; rw [sqK_eq_sqR, sixK_eq_sixR]

/-- The word 0x44000000 is 512 and the word 0x3B000000 is 1/512. -/
theorem ofBits_512 : Ideal.ofBits .f32 0x44000000#32 = ((512 : ℝ) : EReal) := by
  simp [Ideal.ofBits, Ideal.ieee, -EReal.coe_mul]; norm_num

theorem ofBits_inv512 : Ideal.ofBits .f32 0x3B000000#32 = ((1 / 512 : ℝ) : EReal) := by
  simp [Ideal.ofBits, Ideal.ieee, -EReal.coe_mul]; norm_num

theorem meanK_eq_meanR (p : Conf) (d : Fin 3) : meanK p d = meanR p d := by
  unfold meanK meanR
  rw [zero_add, ofBits_512, ofBits_inv512, Ideal.div_coe (by norm_num : (512 : ℝ) ≠ 0)]

/-- The double sum over pairs is the sum over the flattened index. -/
theorem sum_pairs_flat (f : Fin 512 → Fin 512 → EReal) :
    ∑ i : Fin 512, ∑ j : Fin 512, f i j = ∑ k : Fin 262144, f (rowOfFlat k) (colOfFlat k) := by
  rw [← Fintype.sum_prod_type']
  exact Fintype.sum_equiv (finProdFinEquiv (m := 512) (n := 512)) _ _ (fun x => by
    obtain ⟨a, b⟩ := x
    have ha := a.isLt; have hb := b.isLt
    congr 1 <;> ext <;> simp [rowOfFlat, colOfFlat, finProdFinEquiv] <;> omega)

theorem energyK_eq_energyR (p : Conf) : energyK p = energyR p := by
  unfold energyK energyR
  rw [zero_add, zero_add, ← sum_pairs_flat (fun i j => pairR p i j)]
  simp only [pairK_eq_pairR, meanK_eq_meanR]
  rw [mul_comm (∑ i : Fin 512, ∑ d : Fin 3, _) (Ideal.ofBits .f32 0x3F000000#32)]

end Cert.Energy

end
-- ==== Proof.KernelBlock.lean ====
/-
  What one grid point leaves in its [8, 1] output block, as ONE function of the [8, 512, 3] input block.

  The body is a counted loop of 8 trips; trip `k` loads the [1, 512, 3] slab at row `k` of the input block, computes
  one number from it (the energy of that configuration, as a [1, 1] value) and stores it at entry (k, 0) of the
  output block. So the stores of the 8 trips tile the output block, each store's payload is the block function
  `blockFn` below restricted to the store's rectangle, and the block after the body is `blockFn` at every index.
  The trip's single store and what it stores are read off the loop's trip once (`trip_piece`); an induction over
  the trips extends it to every piece the body leaves (`pieces_ok`); the covering lemma for pieces that all agree
  with one function finishes (`out_eq`).
-/
import proofs.«115331_j34385508172081_1_alg».proof.Proof.Gen.KernelIdeal.Frame
import Idealize.ShloMosaic.Lib.Pipeline.Value
import Idealize.ShloMosaic.Lib.ValueIdx

set_option maxRecDepth 16384

noncomputable section

namespace Cert.KernelBlock

open Cert.KernelIdeal Cert.KernelIdeal.Gen
open Idealize.ShloMosaic Idealize.ShloMosaic.TcCoe Idealize.ShloMosaic.Tactic
open Idealize.SL Idealize.SL.Sem

variable {F : FTy → Type} [FloatOps F]

/-- The loop runs 8 trips. -/
theorem trips_eq : k0_t1_loop.trips = 8 := by decide +kernel

/-- The slab trip `k` loads from the input block `x0`: rows [k, k+1), all 512 particles, all 3 coordinates. -/
def slab (x0 : Vec F S8x512x3 .f32) (k : Fin k0_t1_loop.trips) : Vec F S1x512x3 .f32 :=
  View.ld x0 (Rect.unit (s := S8x512x3) (k0_off1 k) S1x512x3.size (k0_off1_inb k))

/-- The [1, 1] value trip `k` stores: the body's arithmetic applied to the slab. -/
def rowVal (x0 : Vec F S8x512x3 .f32) (k : Fin k0_t1_loop.trips) : FVec F S1x1 .f32 :=
  k0_pay2 (k0_pay3 (slab x0 k)) (k0_pay4 k0_pay1 (slab x0 k))

/-- The trip that writes row `y 0` of the output block. -/
def tripOf (y : S8x1.Idx) : Fin k0_t1_loop.trips :=
  ⟨(y 0).val, by have h : (y 0).val < 8 := (y 0).isLt; rw [trips_eq]; exact h⟩

/-- The one index of a [1, 1] value. -/
def origin : S1x1.Idx := ValueIdx.ix2 (0 : Fin 1) (0 : Fin 1)

/-- The output block as one function of the input block: entry (r, 0) is the value the trip `r` stores. -/
def blockFn (x0 : Vec F S8x512x3 .f32) : Vec F S8x1 .f32 := fun y => rowVal x0 (tripOf y) origin

/-- A [1, 1] value has one index. -/
theorem idx_eq_origin (x : S1x1.Idx) : x = origin := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)

variable (c : Dev nD) (i : grid0.Coords) (arg1 : Memref sig .tc .vmem S8x512x3 .f32) (harg1 : arg1.IsWhole)
  (arg2 : Memref sig .tc .vmem S8x1 .f32) (harg2 : arg2.IsWhole) (x0 : Vec F S8x512x3 .f32)

/-- ONE TRIP: trip `k` leaves one piece, a store at the [1, 1] rectangle at row `k` of what the body computes from the
    slab it loaded at row `k`; so its payload is the block function on its rectangle. -/
theorem trip_piece (k : Fin k0_t1_loop.trips) :
    ∀ p ∈ tripL_k0_t1 (F := F) Variants.none c none i arg1 harg1 arg2 harg2 (harg1.unread x0) k,
      ∀ x : p.1.shape.Idx, p.2 x = blockFn x0 (p.1.emb x) := by
  unfold tripL_k0_t1 trip_k0_t1
  dsimp only
  sl_unfold_words
  intro p hp
  rw [List.mem_singleton] at hp
  subst hp
  intro x
  simp only [View.readAt_eq_ld, harg1.read_unread]
  have hx : x = origin := idx_eq_origin x
  subst hx
  show rowVal x0 k origin
    = rowVal x0 (tripOf ((Rect.unit (s := S8x1) (k0_off2 k) S1x1.size (k0_off2_inb k)).emb origin)) origin
  have hk : tripOf ((Rect.unit (s := S8x1) (k0_off2 k) S1x1.size (k0_off2_inb k)).emb origin) = k :=
    Fin.ext (by
      show (k0_off2 k) 0 + 1 * 0 = k.val
      rw [k0_off2_eq]; rfl)
  rw [hk]

/-- EVERY PIECE the trips before `n` leave agrees with the block function on its rectangle: by induction on `n`,
    trip `n` putting its one piece in front of the earlier ones. -/
theorem pieces_ok (n : ℕ) :
    ∀ p ∈ pb_k0_t1 (F := F) Variants.none c none i arg1 harg1 arg2 harg2 (harg1.unread x0) n,
      ∀ x : p.1.shape.Idx, p.2 x = blockFn x0 (p.1.emb x) := by
  induction n with
  | zero => intro p hp; rw [pb_k0_t1.eq_1] at hp; exact absurd hp (List.not_mem_nil)
  | succ n ih =>
    rw [pb_k0_t1.eq_2]
    unfold pb_k0_t1Step
    split
    · intro p hp
      rcases List.mem_append.mp hp with h | h
      · exact trip_piece c i arg1 harg1 arg2 harg2 x0 _ p h
      · exact ih p h
    · exact ih

/-- The pieces the whole body leaves are those of the 8 trips. -/
theorem run_pieces :
    (kernelRun0_A (F := F) c i arg1 harg1 arg2 harg2 x0).1
      = pb_k0_t1 (F := F) Variants.none c none i arg1 harg1 arg2 harg2 (harg1.unread x0) k0_t1_loop.trips := by
  unfold kernelRun0_A
  rfl

/-- THE BLOCK: after the body the output block is the block function of the input block, at every index. -/
theorem out_eq (y : S8x1.Idx) :
    out0_A_1 (F := F) c i arg1 harg1 arg2 harg2 x0 y = blockFn x0 y := by
  unfold out0_A_1
  rw [View.read_writes_eq_canon _ _ _ (cover0_A_1 c i arg1 harg1 arg2 harg2 x0)]
  refine View.canon_apply_of_pieces (blockFn x0) _ ?_ y (cover0_A_1 c i arg1 harg1 arg2 harg2 x0 y)
  rw [run_pieces]
  exact pieces_ok c i arg1 harg1 arg2 harg2 x0 _

end Cert.KernelBlock
end
-- ==== Proof.KernelArray.lean ====
/-
  The kernel's output array after the run, as one function of the [128, 512, 3] array the region finds.

  Grid point `t` handles batch rows 8 t … 8 t + 7: its input block is rows [8 t, 8 t + 8) of the [128, 512, 3] array and
  its output block rows [8 t, 8 t + 8) of the [128, 1] result. The block function of one point (entry (r, 0) is the
  body's arithmetic on the slab at row r of the input block) is therefore the restriction to the block of ONE function
  of the whole array: entry (b, 0) is the body's arithmetic on the slab at batch row b (`arrFn`). The 16 output blocks
  tile the result, so after the run the result is `arrFn` everywhere.
-/
import proofs.«115331_j34385508172081_1_alg».proof.Proof.Gen.KernelIdeal.Value
import proofs.«115331_j34385508172081_1_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.KernelArray

open Cert.KernelIdeal Cert.KernelIdeal.Gen Cert.KernelBlock
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The batch row of an index of the [128, 1] result. -/
def batchOf (j : S128x1.Idx) : Fin 128 := ⟨(j 0).val, by have h : (j 0).val < 128 := (j 0).isLt; exact h⟩

/-- The [1, 512, 3] slab of batch row `b` of the whole array. -/
def arrSlab (a : S128x512x3.Idx → Elt F .f32) (b : Fin 128) : Vec F S1x512x3 .f32 :=
  fun z => a (ValueIdx.ix3 b ⟨(z 1).val, by have h : (z 1).val < 512 := (z 1).isLt; exact h⟩
    ⟨(z 2).val, by have h : (z 2).val < 3 := (z 2).isLt; exact h⟩)

/-- The result as one function of the array: entry (b, 0) is the body's arithmetic on the slab of batch row b. -/
def arrFn (a : S128x512x3.Idx → Elt F .f32) : S128x1.Idx → Elt F .f32 :=
  fun j => k0_pay2 (k0_pay3 (arrSlab a (batchOf j))) (k0_pay4 k0_pay1 (arrSlab a (batchOf j))) origin

/-- The printed index maps over the grid: both windows' blocks sit at row block `t`, at block 0 of the other axes. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The slab trip `y 0` loads from point `t`'s input block is the array's slab at the batch row of `y` in point
    `t`'s output block. -/
theorem slab_eq (c : Dev nD) (t : Fin cfg0.N) (y : S8x1.Idx) :
    slab (iblk m c 0 t) (tripOf y) = arrSlab (V m c main_v0) (batchOf (((cfg0.win 1).blk t).view.emb y)) := by
  funext z
  unfold slab arrSlab
  show V m c main_v0 (((cfg0.win 0).blk t).view.emb
      ((Rect.unit (s := S8x512x3) (k0_off1 (tripOf y)) S1x512x3.size (k0_off1_inb (tripOf y))).idx z)) = _
  refine congrArg (V m c main_v0) ?_
  obtain ⟨e0, e1, e2, e3, e4⟩ := idx_facts t
  have ho : k0_off1 (tripOf y) = ![(y 0).val, 0, 0] := k0_off1_eq (tripOf y)
  funext a; apply Fin.ext
  match a with
  | ⟨0, _⟩ =>
    show win0_0.index t (0 : Fin 3) * 8 + 1 * ((k0_off1 (tripOf y)) 0 + 1 * (z 0).val)
      = win0_1.index t (0 : Fin 2) * 8 + 1 * (y 0).val
    rw [ho]
    have hz : (z 0).val < 1 := (z 0).isLt
    show win0_0.index t (0 : Fin 3) * 8 + 1 * ((y 0).val + 1 * (z 0).val) = win0_1.index t (0 : Fin 2) * 8 + 1 * (y 0).val
    omega
  | ⟨1, _⟩ =>
    show win0_0.index t (1 : Fin 3) * 512 + 1 * ((k0_off1 (tripOf y)) 1 + 1 * (z 1).val) = (z 1).val
    rw [ho]
    show win0_0.index t (1 : Fin 3) * 512 + 1 * (0 + 1 * (z 1).val) = (z 1).val
    omega
  | ⟨2, _⟩ =>
    show win0_0.index t (2 : Fin 3) * 3 + 1 * ((k0_off1 (tripOf y)) 2 + 1 * (z 2).val) = (z 2).val
    rw [ho]
    show win0_0.index t (2 : Fin 3) * 3 + 1 * (0 + 1 * (z 2).val) = (z 2).val
    omega

/-- WHAT POINT `t` WRITES BACK is block `t` of `arrFn` of the array as the region finds it. -/
theorem flushed_eq (c : Dev nD) (t : Fin cfg0.N) :
    (dats m 0 c).flushed 1 t = ((cfg0.win 1).blk t).view.read (Elt F) (arrFn (V m c main_v0)) := by
  rw [Cert.KernelIdeal.Value.flushed1_A]
  funext y
  show out0_A_1 c (grid0.coords t) (ms0_0 t) (hs0_0 t) (ms0_1 t) (hs0_1 t) (iblk m c 0 t) y
    = arrFn (V m c main_v0) (((cfg0.win 1).blk t).view.emb y)
  rw [out_eq]
  unfold blockFn rowVal arrFn
  rw [slab_eq]

/-- An index of the result is in point `t`'s block iff its row is in the block's range. -/
theorem mem_blk (t : Fin cfg0.N) (i : S128x1.Idx) :
    i ∈ ((cfg0.win 1).blk t).view.set ↔ ∀ a : Fin 2, win0_1.index t a * S8x1.size a ≤ (i a).val
      ∧ (i a).val < win0_1.index t a * S8x1.size a + S8x1.size a := by
  show i ∈ ((View.whole main_v1).slice (win0_1.rect t)).set ↔ _
  rw [View.set_slice_whole, Rect.mem_set_unit]
  exact Iff.rfl

/-- The 16 row blocks tile the result: row `r` is in the block of point `r / 8`. -/
theorem cover (i : S128x1.Idx) : ∃ t : Fin cfg0.N, (cfg0.win 1).flush t = true ∧ i ∈ ((cfg0.win 1).blk t).view.set := by
  have hi0 : (i 0).val < 128 := (i 0).isLt
  have hi1 : (i 1).val < 1 := (i 1).isLt
  refine ⟨⟨(i 0).val / 8, by rw [show cfg0.N = 16 from N_0]; omega⟩, flush0_1 _, ?_⟩
  rw [mem_blk]
  obtain ⟨e0, e1, e2, e3, e4⟩ := idx_facts ⟨(i 0).val / 8, by rw [show cfg0.N = 16 from N_0]; omega⟩
  intro a
  match a with
  | ⟨0, _⟩ =>
    show win0_1.index _ (0 : Fin 2) * 8 ≤ (i 0).val ∧ (i 0).val < win0_1.index _ (0 : Fin 2) * 8 + 8
    rw [e3]; show (i 0).val / 8 * 8 ≤ (i 0).val ∧ (i 0).val < (i 0).val / 8 * 8 + 8; omega
  | ⟨1, _⟩ =>
    show win0_1.index _ (1 : Fin 2) * 1 ≤ (i 1).val ∧ (i 1).val < win0_1.index _ (1 : Fin 2) * 1 + 1
    rw [e4]; omega

/-- THE ARRAY after the run is `arrFn` of the array the region found. -/
theorem final (c : Dev nD) : (dats m 0 c).arrAt 1 cfg0.N = arrFn (V m c main_v0) :=
  (dats m 0 c).arrAt_eq_of_cover 1 (arrFn (V m c main_v0)) (fun t _ => flushed_eq m c t) cover

end Cert.KernelArray
end
-- ==== Proof.KernelPay.lean ====
/-
  One loop trip of the kernel, read at the extended reals: from the `[1, 512, 3]` slab of positions it loads to the
  one `[1, 1]` value it stores.

  Write `p i d` for the slab's entry `(0, i, d)`: particle `i`, coordinate `d`. The trip
  * views the slab as a `[512, 3]` matrix (entry `(i, d)` is `p i d`);
  * cuts out each of its three columns, sets it upright and as a row, spreads both over `[512, 512]` and subtracts, so
    that entry `(i, j)` of the difference is `p i d - p j d`; adds the three squares onto ε in turn, takes the square
    root, replaces the diagonal by 1 (the mask: row index equals column index), inverts, forms the sixth power
    `(t²·t²)·t²` and the pair term `1·(s² - 2 s)`, and replaces the diagonal by 0;
  * sums each row of that matrix (a `[512]` vector kept as a `[512, 1]` column), then sums the column;
  * takes the column sums of the `[512, 3]` matrix times 2⁻⁹ as the mean position, spreads it back over the rows,
    sums the squared deviations over the coordinates and then over the particles, and halves;
  * adds the two, each times one.
  Every step is read at ONE index: a pointwise operation reads through by definition; a layout operation (a cast between
  shapes with the same row-major order, a slice along the columns, a broadcast of a column or a row) reads the operand at
  the index with matching coordinates; a sum along one axis is the finite sum over that axis's coordinate. Off the diagonal
  the mask bit is 0 and both selects take the computed branch; on it the outer select gives the zero word, which is 0.
  The result is the energy of `p` in the kernel's arrangement, `Cert.Energy.energyK p`.
-/
import proofs.«115331_j34385508172081_1_alg».proof.Proof.Gen.KernelIdeal.Skeleton
import proofs.«115331_j34385508172081_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.Lib.Affine

noncomputable section

namespace Cert.KernelPay

open Idealize.ShloMosaic Idealize.ShloMosaic.ValueIdx

/-! ## Keepdims column casts and the column broadcast, read at coordinates -/

section Layout
variable {α : Type}

/-- An `[a]` array cast to the column `[a, 1]` reads, at `(i, u)`, the operand at `i`: both have row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along one axis of a matrix, read at coordinates -/

section Reduce
variable {φ : FTy}

/-- The sum along the columns of an `[n0, n1]` matrix reads, at row `i`, the sum over `j` of the entries `(i, j)`. -/
theorem rowSum_apply {n0 n1 : ℕ} (x : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (i : Fin n0) :
    multiReduction .add [1] ⟨1, ![n0]⟩ x acc h hφ hacc (ix1 i) = ∑ j : Fin n1, x (ix2 i j) := by
  rw [Ideal.multiReduction_add_single]
  refine Finset.sum_congr rfl fun k _ => congrArg x (funext fun c => Fin.ext ?_)
  match c with
  | ⟨0, _⟩ => rfl
  | ⟨1, _⟩ => rfl

/-- The sum along the rows of an `[n0, n1]` matrix reads, at column `j`, the sum over `i` of the entries `(i, j)`. -/
theorem colSum_apply {n0 n1 : ℕ} (x : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (j : Fin n1) :
    multiReduction .add [0] ⟨1, ![n1]⟩ x acc h hφ hacc (ix1 j) = ∑ i : Fin n0, x (ix2 i j) := by
  rw [Ideal.multiReduction_add_single]
  refine Finset.sum_congr rfl fun k _ => congrArg x (funext fun c => Fin.ext ?_)
  match c with
  | ⟨0, _⟩ => rfl
  | ⟨1, _⟩ => rfl

end Reduce

/-! ## The mask: the row index equals the column index -/

section Mask
open Cert.KernelIdeal Cert.KernelIdeal.Gen

/-- The mask compares the 32-bit words of the row and the column index; indices below 512 do not wrap, so the bit is set
    exactly on the diagonal. -/
theorem mask_apply (i j : Fin 512) : k0_pay1 (ix2 i j) = 1#1 ↔ i = j := by
  unfold k0_pay1
  show IntOp.cmpi .eq (iota .tc S512x512 32 [0] iota_S512x512_d0_w32 (ix2 i j))
      (iota .tc S512x512 32 [1] iota_S512x512_d1_w32 (ix2 i j)) = 1#1 ↔ i = j
  rw [IntOp.cmpi_eq, iota_single_apply, iota_single_apply]
  show BitVec.ofNat 32 i.val = BitVec.ofNat 32 j.val ↔ i = j
  constructor
  · intro e
    have e' := congrArg BitVec.toNat e
    rw [BitVec.toNat_ofNat, BitVec.toNat_ofNat] at e'
    have hi := i.isLt; have hj := j.isLt
    exact Fin.ext (by omega)
  · rintro rfl; rfl

end Mask

/-! ## The payloads read at coordinates -/

section Payload
open Cert.KernelIdeal Cert.KernelIdeal.Gen

/-- A square root taken entry by entry reads, at an index, the square root of the entry. -/
theorem sqrt_apply {s : Shape} {φ : FTy} (a : FVec Ideal s φ) (i : s.Idx) : sqrt a i = Ideal.sqrt (a i) := rfl

/-- The loaded slab `[1, 512, 3]` viewed `[512, 3]`: entry `(i, d)` is the slab's `(0, i, d)`. -/
theorem pay3_apply (v5 : Vec Ideal S1x512x3 .f32) (i : Fin 512) (d : Fin 3) :
    k0_pay3 (F := Ideal) v5 (ix2 i d) = v5 (ix3 0 i d) := by
  unfold k0_pay3
  exact shapeCast_1ab_ab_apply v5 _ i d

/-- Column `o` of a `[512, 3]` matrix, cut out as `[512, 1]` and flattened to `[512]`: entry `i` is the matrix's
    `(i, o)`. -/
theorem col_apply (o : ℕ) (X : FVec Ideal S512x3 .f32) (h : S512x3.Slices ![0, o] S512x1)
    (h' : S512x1.ShapeCasts S512) (i : Fin 512) (k : Fin 3) (hk : k.val = o) :
    shapeCast S512 (extractStridedSlice S512x1 ![0, o] X h) h' (ix1 i) = X (ix2 i k) := by
  refine (shapeCast_a1_a_apply _ h' i).trans ?_
  exact slice2_axis1_apply o X h i 0 k (by rw [hk]; rfl)

/-- That column set upright and spread over `[512, 512]`: entry `(i, j)` is the matrix's `(i, o)`. -/
theorem colSpread_apply (o : ℕ) (X : FVec Ideal S512x3 .f32) (h : S512x3.Slices ![0, o] S512x1)
    (h' : S512x1.ShapeCasts S512) (h1 : S512.ShapeCasts S512x1) (b1 : S512x1.Broadcasts S512x512)
    (i j : Fin 512) (k : Fin 3) (hk : k.val = o) :
    broadcastTo S512x512 (shapeCast S512x1 (shapeCast S512 (extractStridedSlice S512x1 ![0, o] X h) h') h1) b1 (ix2 i j)
      = X (ix2 i k) := by
  refine (broadcastTo_a1_ab_apply _ b1 i j).trans ?_
  refine (shapeCast_a_a1_apply _ h1 i 0).trans ?_
  exact col_apply o X h h' i k hk

/-- That column laid as a row and spread over `[512, 512]`: entry `(i, j)` is the matrix's `(j, o)`. -/
theorem rowSpread_apply (o : ℕ) (X : FVec Ideal S512x3 .f32) (h : S512x3.Slices ![0, o] S512x1)
    (h' : S512x1.ShapeCasts S512) (h2 : S512.ShapeCasts S1x512) (b2 : S1x512.Broadcasts S512x512)
    (i j : Fin 512) (k : Fin 3) (hk : k.val = o) :
    broadcastTo S512x512 (shapeCast S1x512 (shapeCast S512 (extractStridedSlice S512x1 ![0, o] X h) h') h2) b2 (ix2 i j)
      = X (ix2 j k) := by
  refine (broadcastTo_1b_ab_apply _ b2 i j).trans ?_
  refine (shapeCast_a_1a_apply _ h2 0 j).trans ?_
  exact col_apply o X h h' j k hk

/-- The column of row sums, for any mask `m`: entry `(i, ·)` is the sum over `j` of the pair term of `(i, j)` — the
    Lennard-Jones term of the sixth power of the inverse of the (masked) softened distance — or the zero word where the
    mask bit is set. -/
theorem pay4_apply (m : IVec S512x512 1) (v5 : Vec Ideal S1x512x3 .f32) (i : Fin 512) (u : Fin 1) :
    k0_pay4 (F := Ideal) m v5 (ix2 i u)
      = ∑ j : Fin 512, Scalar.select (m (ix2 i j)) (Ideal.ofBits .f32 0x00000000#32)
          (Cert.Energy.well (Cert.Energy.sixK (Ideal.div (Ideal.ofBits .f32 0x3F800000#32)
             (Scalar.select (m (ix2 i j)) (Ideal.ofBits .f32 0x3F800000#32)
               (Ideal.sqrt (Cert.Energy.sqK (fun i d => v5 (ix3 0 i d)) i j)))))) := by
  unfold k0_pay4
  simp only []
  refine (shapeCast_a_a1_apply _ _ i u).trans ?_
  refine (rowSum_apply (n0 := 512) (n1 := 512) _ _ _ _ _ i).trans ?_
  refine Finset.sum_congr rfl fun j _ => ?_
  simp only [select_apply, mulf_apply, subf_apply, addf_apply, divf_apply, broadcast_apply, sqrt_apply, Ideal.ofBits_def]
  rw [colSpread_apply 0 _ _ _ _ _ i j 0 rfl, rowSpread_apply 0 _ _ _ _ _ i j 0 rfl,
    colSpread_apply 1 _ _ _ _ _ i j 1 rfl, rowSpread_apply 1 _ _ _ _ _ i j 1 rfl,
    colSpread_apply 2 _ _ _ _ _ i j 2 rfl, rowSpread_apply 2 _ _ _ _ _ i j 2 rfl]
  simp only [pay3_apply]
  rfl

/-- With the diagonal mask, the row sums of the masked matrix are the row sums of the pair terms. -/
theorem pay4_mask_apply (v5 : Vec Ideal S1x512x3 .f32) (i : Fin 512) (u : Fin 1) :
    k0_pay4 (F := Ideal) k0_pay1 v5 (ix2 i u) = ∑ j : Fin 512, Cert.Energy.pairK (fun i d => v5 (ix3 0 i d)) i j := by
  rw [pay4_apply]
  refine Finset.sum_congr rfl fun j _ => ?_
  unfold Cert.Energy.pairK
  by_cases hij : i = j
  · rw [if_pos hij, (mask_apply i j).2 hij, select_one, Ideal.ofBits_zero_f32]
  · have hm : k0_pay1 (ix2 i j) = 0#1 := eq_zero_of_ne_one fun h => hij ((mask_apply i j).1 h)
    rw [if_neg hij, hm, select_zero, select_zero]

/-- The total of a `[512, 1]` column, kept as `[1, 1]`: the sum of its entries. -/
theorem total_apply (c : FVec Ideal S512x1 .f32) (h : S512x1.Reduces [0] S1) (hφ : FKind.Formats .f32)
    (hacc : (0x00000000#32 : BitVec 32) = FKind.add.neutral .f32 hφ) (hc : S1.ShapeCasts S1x1) :
    shapeCast S1x1 (multiReduction .add [0] S1 c 0x00000000#32 h hφ hacc) hc (ix2 0 0) = ∑ i : Fin 512, c (ix2 i 0) :=
  (shapeCast_a_1a_apply _ hc 0 0).trans (colSum_apply (n0 := 512) (n1 := 1) c _ h hφ hacc 0)

/-- The column sums of a `[512, 3]` matrix, kept as `[1, 3]`, scaled by `w` and spread back over the rows: entry
    `(i, d)` is the sum of column `d` times `w`. -/
theorem mean_apply (X : FVec Ideal S512x3 .f32) (h : S512x3.Reduces [0] S3) (hφ : FKind.Formats .f32)
    (hacc : (0x00000000#32 : BitVec 32) = FKind.add.neutral .f32 hφ) (hc : S3.ShapeCasts S1x3)
    (b : S1x3.Broadcasts S512x3) (w : Ideal .f32) (i : Fin 512) (d : Fin 3) :
    broadcastTo S512x3 (mulf (shapeCast S1x3 (multiReduction .add [0] S3 X 0x00000000#32 h hφ hacc) hc) (broadcast S1x3 w)) b
        (ix2 i d)
      = (∑ k : Fin 512, X (ix2 k d)) * w := by
  refine (broadcastTo_1b_ab_apply _ b i d).trans ?_
  rw [mulf_apply, broadcast_apply]
  refine congrArg (· * w) ?_
  exact (shapeCast_a_1a_apply _ hc 0 d).trans (colSum_apply (n0 := 512) (n1 := 3) X _ h hφ hacc d)

/-- The value stored from the slab `v6` and the column `v52` of row sums: the column's total times one, plus half the
    summed squared deviations from the column means (each mean the column sum times 2⁻⁹), times one. -/
theorem pay2_apply (v6 : FVec Ideal S512x3 .f32) (v52 : FVec Ideal S512x1 .f32) :
    k0_pay2 (F := Ideal) v6 v52 (ix2 0 0)
      = (∑ i : Fin 512, v52 (ix2 i 0)) * Ideal.ofBits .f32 0x3F800000#32
        + ((∑ i : Fin 512, ∑ d : Fin 3,
              (v6 (ix2 i d) - (∑ k : Fin 512, v6 (ix2 k d)) * Ideal.ofBits .f32 0x3B000000#32)
                * (v6 (ix2 i d) - (∑ k : Fin 512, v6 (ix2 k d)) * Ideal.ofBits .f32 0x3B000000#32))
            * Ideal.ofBits .f32 0x3F000000#32) * Ideal.ofBits .f32 0x3F800000#32 := by
  unfold k0_pay2
  simp only []
  rw [shapeCast_shapeCast]
  simp only [mulf_apply, addf_apply, broadcast_apply, Ideal.ofBits_def]
  refine congrArg₂ (· + ·) (congrArg (· * _) (total_apply _ _ _ _ _))
    (congrArg (· * _) (congrArg (· * _) ((total_apply _ _ _ _ _).trans (Finset.sum_congr rfl fun i _ => ?_))))
  refine (shapeCast_a_a1_apply _ _ i 0).trans
    ((rowSum_apply (n0 := 512) (n1 := 3) _ _ _ _ _ i).trans (Finset.sum_congr rfl fun d _ => ?_))
  simp only [mulf_apply, subf_apply]
  exact congrArg₂ (· * ·) (congrArg (v6 (ix2 i d) - ·) (mean_apply _ _ _ _ _ _ _ i d))
    (congrArg (v6 (ix2 i d) - ·) (mean_apply _ _ _ _ _ _ _ i d))

/-- One loop trip's stored value is the energy of the slab it loads, in the kernel's arrangement. -/
theorem pay_eq (v5 : Vec Ideal S1x512x3 .f32) :
    k0_pay2 (F := Ideal) (k0_pay3 (F := Ideal) v5) (k0_pay4 (F := Ideal) (k0_pay1) v5) (ValueIdx.ix2 0 0)
      = Cert.Energy.energyK (fun i d => v5 (ValueIdx.ix3 0 i d)) := by
  rw [pay2_apply]
  unfold Cert.Energy.energyK Cert.Energy.meanK
  simp only [pay4_mask_apply, pay3_apply]

end Payload

end Cert.KernelPay

end
-- ==== Proof.KernelValue.lean ====
/-
  The kernel's result, at the exact-arithmetic reading, as a function of the program's argument.

  The region finds the [128, 512, 3] array as the row-major reshape of the [128, 1536] argument: entry (b, i, d) is
  argument entry (b, 3 i + d), so the slab of batch row b is the configuration `rowOf x b`. The body's arithmetic on a
  slab is the kernel-arrangement energy of the configuration the slab holds, hence the result's entry (b, 0) is
  `energyK (rowOf x b)`.
-/
import proofs.«115331_j34385508172081_1_alg».proof.Proof.KernelArray
import proofs.«115331_j34385508172081_1_alg».proof.Proof.KernelPay
import proofs.«115331_j34385508172081_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelValue

open Cert.KernelIdeal Cert.KernelIdeal.Gen Cert.KernelBlock Cert.KernelArray
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds the reshape of the argument. -/
theorem V_main_v0 (c : Dev nD) :
    (V m c main_v0 : S128x512x3.Idx → Elt Ideal .f32)
      = shapeCast S128x512x3 (m ((c : Thread nD τ).loc main_arg0)) shapeCasts_S128x1536_S128x512x3 := by
  dsimp only [Gen.V, Gen.hostOps0]
  after_results
  rfl

/-- The row-major reshape [128, 1536] → [128, 512, 3] read at an index: (b, i, d) holds entry (b, 3 i + d). -/
theorem cast_apply (x : S128x1536.Idx → Elt Ideal .f32) (b : Fin 128) (i : Fin 512) (d : Fin 3) :
    shapeCast S128x512x3 x shapeCasts_S128x1536_S128x512x3 (ValueIdx.ix3 b i d)
      = x (ValueIdx.ix2 b ⟨3 * i.val + d.val, by have := i.isLt; have := d.isLt; omega⟩) :=
  shapeCast_apply x shapeCasts_S128x1536_S128x512x3 _ _ (by
    rewrite [Shape.rowMajor_val_two, Shape.rowMajor_val_three]
    have hb := b.isLt; have hi := i.isLt; have hd := d.isLt
    show b.val * 1536 + (3 * i.val + d.val) = (b.val * 512 + i.val) * 3 + d.val
    omega)

/-- The slab of batch row b of the reshaped argument holds the configuration `rowOf x b`. -/
theorem slab_conf (x : S128x1536.Idx → Elt Ideal .f32) (b : Fin 128) :
    (fun (i : Fin 512) (d : Fin 3) => arrSlab (F := Ideal) (shapeCast S128x512x3 x shapeCasts_S128x1536_S128x512x3) b (ValueIdx.ix3 0 i d))
      = Cert.Energy.rowOf x b := by
  funext i d
  unfold arrSlab Cert.Energy.rowOf
  exact cast_apply x b i d

/-- THE KERNEL'S RESULT at the exact-arithmetic reading: entry (b, 0) is the kernel-arrangement energy of row b. -/
theorem kernel_final (c : Dev nD) (j : S128x1.Idx) :
    (dats m 0 c).arrAt 1 cfg0.N j = Cert.Energy.energyK (Cert.Energy.rowOf (m ((c : Thread nD τ).loc main_arg0)) (j 0)) := by
  rw [final m c, V_main_v0]
  unfold arrFn
  show k0_pay2 (F := Ideal) (k0_pay3 (F := Ideal) (arrSlab _ (batchOf j))) (k0_pay4 (F := Ideal) k0_pay1 (arrSlab _ (batchOf j))) (ValueIdx.ix2 0 0) = _
  rw [Cert.KernelPay.pay_eq, slab_conf]
  rfl

end Cert.KernelValue
end
-- ==== Proof.RefRead.lean ====
/-
  The reference program's result, read at one row, is the energy of that row's configuration in the reference's
  arrangement (Spec: energyR).

  Row b of the flat [128, 1536] input is a configuration p = rowOf x b of 512 particles with 3 coordinates: the reshape
  to [128, 512, 3] sends (b, i, d) to flat position (512 b + i) 3 + d, which is entry 3 i + d of row b.
  * The two broadcasts of that array to [128, 512, 512, 3] read p i d and p j d at (b, i, j, d); their difference is
    squared and summed over d from the zero word (which is 0), and the softening constant is added: sqR p i j.
  * The diagonal mask compares the row counter plus 0 with the column counter as 32-bit words; both are below 512,
    so it holds exactly when i = j. Off the diagonal the guarded square root is the square root, and the chain of
    products from t = 1 / sqrt (sqR p i j) is t², t⁴, t²·t⁴ = sixR t, its square, twice it, their difference, times
    one: well (sixR t). On the diagonal the outer selection gives the zero word. Together: pairR p i j.
  * The reshape [128, 512, 512] → [128, 262144] reads flat position k of row b at (b, k / 512, k % 512), so the sum
    over the flat axis is the sum of pairR p (rowOfFlat k) (colOfFlat k).
  * The column sums over the particle axis divided by 512 are meanR p d; the squared deviations are summed over the
    particle and the coordinate axis together: the indices of [128, 512, 3] that keep row b are the (b, i, d), one for
    each pair (i, d), so that sum is the double sum over i and d.
  * The two parts are scaled by the words for one, one half and one and added: energyR p.
-/
import proofs.«115331_j34385508172081_1_alg».proof.Proof.Gen.ReferenceIdeal.Read
import proofs.«115331_j34385508172081_1_alg».proof.Proof.Spec
import Idealize.ShloMosaic.Lib.ValueIdx
import Idealize.ShloMosaic.Lib.StableHlo.Predicate
import Idealize.ShloMosaic.PureOps.Ideal
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx Cert.Energy

abbrev In := (⟨S128x1536, .f32⟩ : BufTy).Contents (Elt Ideal)

/-- the reshape of the flat row: entry (b, i, d) is entry 3 i + d of row b -/
theorem v0_read (x0 : In) (b : Fin 128) (i : Fin 512) (d : Fin 3) :
    val_main_v0 (F := Ideal) x0 (ix3 b i d) = rowOf x0 b i d := by
  rw [val_main_v0_apply]
  unfold rowOf
  refine congrArg x0 (funext fun a => ?_)
  match a with
  | ⟨0, _⟩ => exact Fin.ext (by have := i.isLt; have := d.isLt; have := b.isLt; show ((b.val * 512 + i.val) * 3 + d.val) / 1536 = b.val; omega)
  | ⟨1, _⟩ => exact Fin.ext (by have := i.isLt; have := d.isLt; have := b.isLt; show ((b.val * 512 + i.val) * 3 + d.val) % 1536 = 3 * i.val + d.val; omega)

/-- the first broadcast operand at (b, i, j, d) is coordinate d of particle i -/
theorem v3_read (x0 : In) (b : Fin 128) (i j : Fin 512) (d : Fin 3) :
    val_main_v3 (F := Ideal) x0 (ix4 b i j d) = rowOf x0 b i d := by
  rw [val_main_v3_apply, val_main_v1_apply, ← v0_read]
  refine congrArg (val_main_v0 (F := Ideal) x0) (funext fun a => ?_)
  match a with
  | ⟨0, _⟩ => rfl
  | ⟨1, _⟩ => rfl
  | ⟨2, _⟩ => rfl

/-- the second broadcast operand at (b, i, j, d) is coordinate d of particle j -/
theorem v4_read (x0 : In) (b : Fin 128) (i j : Fin 512) (d : Fin 3) :
    val_main_v4 (F := Ideal) x0 (ix4 b i j d) = rowOf x0 b j d := by
  rw [val_main_v4_apply, val_main_v2_apply, ← v0_read]
  refine congrArg (val_main_v0 (F := Ideal) x0) (funext fun a => ?_)
  match a with
  | ⟨0, _⟩ => rfl
  | ⟨1, _⟩ => rfl
  | ⟨2, _⟩ => rfl

/-- the softened squared distance of the pair (i, j) of row b -/
theorem v9_read (x0 : In) (b : Fin 128) (i j : Fin 512) :
    val_main_v9 (F := Ideal) x0 (ix3 b i j) = sqR (rowOf x0 b) i j := by
  rw [val_main_v9_apply, val_main_v7_apply, val_main_v8_apply, val_main_cst_0_apply, val_main_cst_apply]
  unfold sqR
  simp only [Ideal.addf_def, Ideal.ofBits_def, Ideal.ofBits_zero_f32]
  refine congrArg (fun t => (0 + t) + _) (Finset.sum_congr rfl fun d _ => ?_)
  have e : idx_main_v7 (ix3 b i j) d = ix4 b i j d := by
    funext a
    match a with
    | ⟨0, _⟩ => rfl
    | ⟨1, _⟩ => rfl
    | ⟨2, _⟩ => rfl
    | ⟨3, _⟩ => rfl
  rw [e, val_main_v6_apply, val_main_v5_apply, v3_read, v4_read]
  rfl

/-- the comparison of the row counter (plus the zero offset) with the column counter, both below 512 and so unwrapped
    in 32 bits, holds exactly on the diagonal -/
theorem mask_iff (i j : Fin 512) : val_main_v15 (F := Ideal) (ix2 i j) = 1#1 ↔ i = j := by
  rw [val_main_v15_apply, val_main_v14_apply, val_main_v11_apply, val_main_v12_apply, val_main_v13_apply,
    val_main_c_apply, StableHlo.Predicate.cmpi_eq_iff]
  show BitVec.ofNat 32 i.val + 0#32 = BitVec.ofNat 32 j.val ↔ i = j
  rw [BitVec.add_zero]
  constructor
  · intro h
    have h' := congrArg BitVec.toNat h
    rw [BitVec.toNat_ofNat, BitVec.toNat_ofNat] at h'
    have := i.isLt; have := j.isLt
    exact Fin.ext (by omega)
  · intro h; rw [h]

theorem mask0_read (b : Fin 128) (i j : Fin 512) :
    val_main_call0_v1 (F := Ideal) (ix3 b i j) = val_main_v15 (F := Ideal) (ix2 i j) := by
  rw [val_main_call0_v1_apply]
  refine congrArg (val_main_v15 (F := Ideal)) (funext fun a => ?_)
  match a with
  | ⟨0, _⟩ => rfl
  | ⟨1, _⟩ => rfl

theorem mask1_read (b : Fin 128) (i j : Fin 512) :
    val_main_call1_v1 (F := Ideal) (ix3 b i j) = val_main_v15 (F := Ideal) (ix2 i j) := by
  rw [val_main_call1_v1_apply]
  refine congrArg (val_main_v15 (F := Ideal)) (funext fun a => ?_)
  match a with
  | ⟨0, _⟩ => rfl
  | ⟨1, _⟩ => rfl

/-- off the diagonal the guarded square root is the square root itself, and the term is the pair's well -/
theorem v27_read (x0 : In) (b : Fin 128) (i j : Fin 512) (hij : ¬ i = j) :
    val_main_v27 (F := Ideal) x0 (ix3 b i j)
      = well (sixR (Ideal.div (Ideal.ofBits .f32 0x3F800000#32) (Ideal.sqrt (sqR (rowOf x0 b) i j)))) := by
  have hm : val_main_call0_v1 (F := Ideal) (ix3 b i j) = 0#1 := by
    rw [mask0_read]; exact eq_zero_of_ne_one (fun h => hij ((mask_iff i j).1 h))
  have h16 : val_main_v16 (F := Ideal) x0 (ix3 b i j) = Ideal.sqrt (sqR (rowOf x0 b) i j) := by
    rw [val_main_v16_apply, hm, select_zero, val_main_v10_apply, v9_read, Ideal.hostUnary_sqrt_def]
  have h18 : val_main_v18 (F := Ideal) x0 (ix3 b i j)
      = Ideal.div (Ideal.ofBits .f32 0x3F800000#32) (Ideal.sqrt (sqR (rowOf x0 b) i j)) := by
    rw [val_main_v18_apply, h16, val_main_v17_apply, val_main_cst_2_apply, Ideal.hostDivf_def, Ideal.ofBits_def]
  rw [val_main_v27_apply, val_main_v26_apply, val_main_cst_4_apply, val_main_v25_apply, val_main_v22_apply,
    val_main_v24_apply, val_main_v23_apply, val_main_cst_3_apply, val_main_v21_apply, val_main_v20_apply,
    val_main_v19_apply, h18]
  unfold well sixR
  simp only [Ideal.mulf_def, Ideal.subf_def, Ideal.ofBits_def]

/-- the guarded pair term at (b, i, j): zero on the diagonal, the well off it -/
theorem v28_read (x0 : In) (b : Fin 128) (i j : Fin 512) :
    val_main_v28 (F := Ideal) x0 (ix3 b i j) = pairR (rowOf x0 b) i j := by
  rw [val_main_v28_apply, mask1_read]
  unfold pairR
  by_cases hij : i = j
  · rw [if_pos hij, (mask_iff i j).2 hij, select_one, val_main_call1_v2_apply, val_main_call1_v0_apply,
      val_main_cst_5_apply, Ideal.ofBits_def, Ideal.ofBits_zero_f32]
  · rw [if_neg hij, eq_zero_of_ne_one (fun h => hij ((mask_iff i j).1 h)), select_zero, v27_read x0 b i j hij]

/-- the flat pair sum of row b: the reshape sends flat position k to the pair (k / 512, k % 512) -/
theorem v30_read (x0 : In) (b : Fin 128) :
    val_main_v30 (F := Ideal) x0 (ix1 b)
      = 0 + ∑ k : Fin 262144, pairR (rowOf x0 b) (rowOfFlat k) (colOfFlat k) := by
  rw [val_main_v30_apply, val_main_cst_6_apply, Ideal.ofBits_def, Ideal.ofBits_zero_f32]
  refine congrArg (0 + ·) (Finset.sum_congr rfl fun k _ => ?_)
  rw [val_main_v29_apply, ← v28_read]
  refine congrArg (val_main_v28 (F := Ideal) x0) (funext fun a => ?_)
  have hb := b.isLt; have hk := k.isLt
  match a with
  | ⟨0, _⟩ => exact Fin.ext (by show (b.val * 262144 + k.val) / 262144 = b.val; omega)
  | ⟨1, _⟩ => exact Fin.ext (by show (b.val * 262144 + k.val) / 512 % 512 = k.val / 512; omega)
  | ⟨2, _⟩ => exact Fin.ext (by show (b.val * 262144 + k.val) % 512 = k.val % 512; omega)

/-- the mean position of row b, coordinate d, read at any particle's row of the broadcast -/
theorem v37_read (x0 : In) (b : Fin 128) (i : Fin 512) (d : Fin 3) :
    val_main_v37 (F := Ideal) x0 (ix3 b i d) = meanR (rowOf x0 b) d := by
  rw [val_main_v37_apply, val_main_v36_apply, val_main_v35_apply, val_main_cst_9_apply, val_main_v34_apply,
    val_main_v33_apply, val_main_cst_8_apply]
  unfold meanR
  simp only [Ideal.hostDivf_def, Ideal.ofBits_def, Ideal.ofBits_zero_f32]
  refine congrArg (fun t => Ideal.div (0 + t) _) (Finset.sum_congr rfl fun k _ => ?_)
  rw [← v0_read]
  refine congrArg (val_main_v0 (F := Ideal) x0) (funext fun a => ?_)
  match a with
  | ⟨0, _⟩ => rfl
  | ⟨1, _⟩ => rfl
  | ⟨2, _⟩ => rfl

/-- the squared deviation from the mean at (b, i, d) -/
theorem v39_read (x0 : In) (b : Fin 128) (i : Fin 512) (d : Fin 3) :
    val_main_v39 (F := Ideal) x0 (ix3 b i d)
      = (rowOf x0 b i d - meanR (rowOf x0 b) d) * (rowOf x0 b i d - meanR (rowOf x0 b) d) := by
  rw [val_main_v39_apply, val_main_v38_apply, v0_read, v37_read]
  rfl

/-- A sum over the particle axis and the coordinate axis of a [128, 512, 3] array, read at row b: the indices
    whose kept coordinate is b are exactly the (b, i, d), one for each pair (i, d). -/
theorem sum_rows (h : S128x512x3.ReducesTo [1, 2] S128) (y : S128x512x3.Idx → EReal) (init : EReal) (b : Fin 128) :
    Ideal.hostReduceAdd h y init (ix1 b) = init + ∑ i : Fin 512, ∑ d : Fin 3, y (ix3 b i d) := by
  unfold Ideal.hostReduceAdd
  refine congrArg (init + ·) ?_
  rw [← Fintype.sum_prod_type' (f := fun (i : Fin 512) (d : Fin 3) => y (ix3 b i d))]
  refine Finset.sum_nbij' (fun i => ((i 1 : Fin 512), (i 2 : Fin 3))) (fun p => ix3 b p.1 p.2) ?_ ?_ ?_ ?_ ?_
  · intro i _; exact Finset.mem_univ _
  · intro p _
    refine Finset.mem_filter.2 ⟨Finset.mem_univ _, funext fun a => ?_⟩
    match a with
    | ⟨0, _⟩ => rfl
  · intro i hi
    have hj := (Finset.mem_filter.1 hi).2
    have h0 : i 0 = b := congrFun hj 0
    funext a
    match a with
    | ⟨0, _⟩ => exact h0.symm
    | ⟨1, _⟩ => rfl
    | ⟨2, _⟩ => rfl
  · intro p _; rfl
  · intro i hi
    have hj := (Finset.mem_filter.1 hi).2
    have h0 : i 0 = b := congrFun hj 0
    refine congrArg y (funext fun a => ?_)
    match a with
    | ⟨0, _⟩ => exact h0
    | ⟨1, _⟩ => rfl
    | ⟨2, _⟩ => rfl

/-- the sum of squared deviations of row b -/
theorem v40_read (x0 : In) (b : Fin 128) :
    val_main_v40 (F := Ideal) x0 (ix1 b)
      = 0 + ∑ i : Fin 512, ∑ d : Fin 3,
          (rowOf x0 b i d - meanR (rowOf x0 b) d) * (rowOf x0 b i d - meanR (rowOf x0 b) d) := by
  show Ideal.hostReduceAdd reducesTo_S128x512x3_S128_d1_2 (val_main_v39 (F := Ideal) x0)
      (val_main_cst_10 (F := Ideal) (Shape.Idx.first h_S_)) (ix1 b) = _
  rw [sum_rows, val_main_cst_10_apply, Ideal.ofBits_def, Ideal.ofBits_zero_f32]
  simp only [v39_read]

/-- the energy of row b before the last layout step: the pair sum times one plus half the deviation sum times one -/
theorem v45_read (x0 : In) (b : Fin 128) :
    val_main_v45 (F := Ideal) x0 (ix1 b) = energyR (rowOf x0 b) := by
  rw [val_main_v45_apply, val_main_v32_apply, val_main_v44_apply, val_main_v42_apply, v30_read, v40_read,
    val_main_v31_apply, val_main_v41_apply, val_main_v43_apply, val_main_cst_7_apply, val_main_cst_11_apply,
    val_main_cst_12_apply]
  unfold energyR
  simp only [Ideal.addf_def, Ideal.mulf_def, Ideal.ofBits_def]

open Cert.ReferenceIdeal Idealize.ShloMosaic in
/-- The reference's result at row j is the energy of that row's configuration in the reference's arrangement. -/
theorem ref_eq (x0 : (⟨S128x1536, .f32⟩ : BufTy).Contents (Elt Ideal)) (j : S128x1.Idx) :
    Cert.ReferenceIdeal.Read.val_main_v46 (F := Ideal) x0 j = Cert.Energy.energyR (Cert.Energy.rowOf x0 (j 0)) := by
  have e : idx_main_v46 j = ix1 (n := 128) (j 0) := by
    funext a
    match a with
    | ⟨0, _⟩ => rfl
  rw [val_main_v46_apply, e]
  exact v45_read x0 (j 0)

end Cert.RefRead

end
-- ==== Proof.lean ====
/-
  The certificate of the batched pair-energy kernel against its jnp reference, over the extended reals.

  For each of 128 rows, read as a configuration of 512 particles in 3 dimensions, both programs compute the
  Lennard-Jones energy of all ordered pairs, `Σ_{i ≠ j} 1·(t⁽¹²⁾ − 2 t⁽⁶⁾)` with `t = 1 / √(ε + |p_i − p_j|²)`, plus the
  harmonic term `½ Σ_i |p_i − mean|²`. The kernel walks the rows eight per grid point, one per trip of a counted
  loop, summing row by row; the reference forms the [128, 512, 512, 3] differences at once and sums flat. The
  modules, in the order they depend on each other:
  * Spec: the energy of a configuration in the kernel's arrangement and in the reference's, and the law that they
    agree on every configuration of extended reals (re-grouped sums and products; x / 512 = x · 2⁻⁹);
  * KernelPay: one trip's arithmetic on the slab it loads is the kernel-arrangement energy of the slab;
  * KernelBlock: the eight trips' stores tile the output block, so the block is one function of the input block;
  * KernelArray: the sixteen blocks tile the result, so the result is one function of the array the region finds;
  * KernelValue: that array is the reshape of the argument, so entry (b, 0) of the result is the energy of row b;
  * RefRead: the reference's result at (b, 0) is the reference-arrangement energy of row b.
  Below: the three frames, the (empty) idealization ledger, and the two runs set side by side.
-/
import proofs.«115331_j34385508172081_1_alg».proof.Defs
import proofs.«115331_j34385508172081_1_alg».proof.Proof.Gen.Kernel
import proofs.«115331_j34385508172081_1_alg».proof.Proof.Gen.Kernel.Skeleton
import proofs.«115331_j34385508172081_1_alg».proof.Proof.Gen.Kernel.Loops
import proofs.«115331_j34385508172081_1_alg».proof.Proof.Gen.Kernel.Launch
import proofs.«115331_j34385508172081_1_alg».proof.Proof.Gen.Kernel.Points
import proofs.«115331_j34385508172081_1_alg».proof.Proof.Gen.Kernel.Frame
import proofs.«115331_j34385508172081_1_alg».proof.Proof.Gen.KernelIdeal
import proofs.«115331_j34385508172081_1_alg».proof.Proof.Gen.KernelIdeal.Skeleton
import proofs.«115331_j34385508172081_1_alg».proof.Proof.Gen.KernelIdeal.Loops
import proofs.«115331_j34385508172081_1_alg».proof.Proof.Gen.KernelIdeal.Launch
import proofs.«115331_j34385508172081_1_alg».proof.Proof.Gen.KernelIdeal.Points
import proofs.«115331_j34385508172081_1_alg».proof.Proof.Gen.KernelIdeal.Frame
import proofs.«115331_j34385508172081_1_alg».proof.Proof.Gen.ReferenceIdeal
import proofs.«115331_j34385508172081_1_alg».proof.Proof.Gen.Pre_finite_inputs
import proofs.«115331_j34385508172081_1_alg».proof.Proof.Gen.KernelIdeal.Value
import proofs.«115331_j34385508172081_1_alg».proof.Proof.Gen.ReferenceIdeal.Run
import proofs.«115331_j34385508172081_1_alg».proof.Proof.Gen.ReferenceIdeal.Read
import proofs.«115331_j34385508172081_1_alg».proof.Proof.Spec
import proofs.«115331_j34385508172081_1_alg».proof.Proof.KernelValue
import proofs.«115331_j34385508172081_1_alg».proof.Proof.RefRead
import Idealize.ShloMosaic.Adequacy
import Idealize.ShloMosaic.Init

noncomputable section

/-! ## The claims -/

namespace Cert.Proof.Claims

open Idealize.ShloMosaic Idealize.SL.Sem

/-- The word-level kernel and the idealized kernel run to completion with their argument unchanged: the frame of the
    pipelined launch, with the counted loop taken by its invariant. -/
theorem frame_kernel : Cert.frame_Kernel := fun m ρ _ => Cert.Kernel.Gen.frame m ρ
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Both programs end with entry (b, 0) of the result at the energy of row b of the argument: the kernel in its
    arrangement (`energyK`), the reference in its own (`energyR`), and the two arrangements agree on every
    configuration of extended reals. -/
theorem algebraic : Cert.algebraic_KernelIdeal_ReferenceIdeal := by
  intro m ρ m' ρ' _ hagree
  refine ⟨fun c => fun j : Cert.KernelIdeal.S128x1.Idx =>
      Cert.Energy.energyK (Cert.Energy.rowOf (m ((c.tc : Thread Cert.KernelIdeal.nD Cert.KernelIdeal.τ).loc Cert.KernelIdeal.main_arg0)) (j 0)), ?_, ?_⟩
  · exact (θ_run Cert.KernelIdeal.defs _ _).mono
      (fun r h c => ⟨(h c).1.trans (funext fun j => Cert.KernelValue.kernel_final m c j), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v46_eq]
    funext j
    rw [Cert.RefRead.ref_eq, hagree c]
    exact (Cert.Energy.energyK_eq_energyR _).symm

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal,
  Cert.Proof.Claims.preserves, Cert.Proof.Claims.algebraic⟩

end Cert.Proof

end
